-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x2048, .f32⟩
  | .local _ .vmem, ⟨5, _⟩ => ⟨S512x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  reduces_S512x128_S512 : S512x128.Reduces [1] S512
  shapeCasts_S512_S512x1 : S512.ShapeCasts S512x1
  reduces_S2048x128_S2048 : S2048x128.Reduces [1] S2048
  shapeCasts_S2048_S1x2048 : S2048.ShapeCasts S1x2048
  bitsLt_bf16_f32 : FTy.bits .bf16 < FTy.bits .f32
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩
abbrev S8192x8192 : Shape := ⟨2, ![8192, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  transposes_S8192x128_S128x8192_1_0 : S8192x128.Transposes [1, 0] S128x8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RbfSpec.lean ====
/-
  The Gaussian (radial basis function) kernel matrix of two point sets, as one function on the extended reals.

  For x1, x2 : [8192, 128] the entry (r, s) is

      exp (c · ((‖x1 r‖² − 2 · ⟨x1 r, x2 s⟩) + ‖x2 s‖²)),

  the expansion of c · ‖x1 r − x2 s‖² with the three sums kept apart and added in this order; c and 2 are the extended
  reals two fixed f32 words denote. Neither word is ever evaluated: both programs spell the same words, and the
  three sums are sums over the same 128 terms on both sides, so the two programs meet at this function term by
  term, with no algebra on the extended reals beyond reading each operation at an index.
-/
import Idealize.ShloMosaic.PureOps.Ideal
import Idealize.ShloMosaic.Lib.ValueIdx

noncomputable section

open scoped BigOperators

namespace Cert.Rbf

open Idealize.ShloMosaic Idealize.ShloMosaic.ValueIdx

/-- The squared length of row `r` of an `[n, 128]` array: the sum of its 128 squares. -/
def sqnorm {n : ℕ} (x : (⟨2, ![n, 128]⟩ : Shape).Idx → EReal) (r : Fin n) : EReal :=
  ∑ k : Fin 128, x (ix2 r k) * x (ix2 r k)

/-- The inner product of row `r` of one array with row `s` of another. -/
def inner {n n' : ℕ} (x : (⟨2, ![n, 128]⟩ : Shape).Idx → EReal) (y : (⟨2, ![n', 128]⟩ : Shape).Idx → EReal)
    (r : Fin n) (s : Fin n') : EReal :=
  ∑ k : Fin 128, x (ix2 r k) * y (ix2 s k)

/-- One entry from its three sums: `exp (c · ((a − 2 · p) + b))`, `a` and `b` the two squared lengths, `p` the inner
    product. -/
def entry (a b p : EReal) : EReal :=
  Ideal.exp (Ideal.ofBits .f32 0xBBA3D70A#32 * ((a - Ideal.ofBits .f32 0x40000000#32 * p) + b))

/-- The whole matrix: entry `(r, s)` from row `r` of `x1` and row `s` of `x2`. -/
def rbf (x1 x2 : (⟨2, ![8192, 128]⟩ : Shape).Idx → EReal) : (⟨2, ![8192, 8192]⟩ : Shape).Idx → EReal :=
  fun i => entry (sqnorm x1 (i 0)) (sqnorm x2 (i 1)) (inner x1 x2 (i 0) (i 1))

/-- The matrix at an index given by its coordinates. -/
theorem rbf_ix2 (x1 x2 : (⟨2, ![8192, 128]⟩ : Shape).Idx → EReal) (r s : Fin 8192) :
    rbf x1 x2 (ix2 r s) = entry (sqnorm x1 r) (sqnorm x2 s) (inner x1 x2 r s) := rfl

end Cert.Rbf

end
-- ==== Proof.RbfReference.lean ====
/-
  The reference program's result is the kernel matrix `Cert.Rbf.rbf` of its two arguments.

  Read one operation at a time at an index (r, s): the outer exponential of the product of the constant with
  ((n1 − 2 · cross) + n2), where n1 is the row sum of squares of x1 kept as a column and broadcast along the row,
  n2 the same of x2 turned into a row, and cross the contraction of x1 with the transpose of x2. Each layout step
  only moves the index, so the three sums arrive as sums over k of x1 (r, k)², x2 (s, k)² and x1 (r, k) · x2 (s, k).
-/
import proofs.«123602_j74474732913139_1_alg».proof.Proof.Gen.ReferenceIdeal.Read
import proofs.«123602_j74474732913139_1_alg».proof.Proof.RbfSpec

noncomputable section

open scoped BigOperators

namespace Cert.Rbf.Reference

open Cert.ReferenceIdeal Cert.ReferenceIdeal.Gen Cert.ReferenceIdeal.Read
open Idealize.ShloMosaic Idealize.ShloMosaic.ValueIdx

/-- The first row sum's operand index: through the column and its broadcast, row `r` at column `k`. -/
theorem idx_n1 (r s : Fin 8192) (k : Fin 128) :
    idx_main_v1 (idx_main_v2 (idx_main_v11 (ix2 r s))) k = ix2 r k :=
  funext fun a => match a with | ⟨0, _⟩ => rfl | ⟨1, _⟩ => rfl

/-- The second row sum's operand index: through the column, its transpose and the broadcast, row `s` at column `k`. -/
theorem idx_n2 (r s : Fin 8192) (k : Fin 128) :
    idx_main_v4 (idx_main_v5 (idx_main_v6 (idx_main_v13 (ix2 r s)))) k = ix2 s k :=
  funext fun a => match a with | ⟨0, _⟩ => rfl | ⟨1, _⟩ => rfl

/-- The contraction's left operand index: row `r` at column `k`. -/
theorem idx_lhs (r s : Fin 8192) (k : Fin 128) : lidx_main_v8 (ix2 r s) k = ix2 r k :=
  funext fun a => match a with | ⟨0, _⟩ => rfl | ⟨1, _⟩ => rfl

/-- The contraction's right operand index, read through the transpose: row `s` at column `k`. -/
theorem idx_rhs (r s : Fin 8192) (k : Fin 128) : idx_main_v7 (ridx_main_v8 (ix2 r s) k) = ix2 s k :=
  funext fun a => match a with | ⟨0, _⟩ => rfl | ⟨1, _⟩ => rfl

/-- The reference's last stage is the kernel matrix of the arguments. -/
theorem result_eq (x0 x1 : (⟨S8192x128, .f32⟩ : BufTy).Contents (Elt Ideal)) :
    val_main_v17 (F := Ideal) x0 x1 = rbf x0 x1 := by
  funext i
  obtain ⟨r, s, rfl⟩ : ∃ (r s : Fin 8192), i = ix2 r s := ⟨i 0, i 1, eq_ix2 i⟩
  rw [rbf_ix2, val_main_v17_apply, val_main_v16_apply, val_main_v15_apply, val_main_cst_2_apply, val_main_v14_apply,
    val_main_v12_apply, val_main_v11_apply, val_main_v2_apply, val_main_v1_apply, val_main_cst_apply,
    val_main_v10_apply, val_main_v9_apply, val_main_cst_1_apply, val_main_v8_apply,
    val_main_v13_apply, val_main_v6_apply, val_main_v5_apply, val_main_v4_apply, val_main_cst_0_apply]
  simp only [val_main_v0_apply, val_main_v3_apply, val_main_v7_apply, idx_n1, idx_n2, idx_lhs, idx_rhs,
    Ideal.hostUnary_exp_def, Ideal.mulf_def, Ideal.addf_def, Ideal.subf_def, Ideal.ofBits_def,
    Ideal.ofBits_zero_f32, zero_add]
  rfl

end Cert.Rbf.Reference

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.RbfPayload.lean ====
/-
  One element of the block the kernel body stores, from the two blocks it loads.

  The body loads a [512, 128] block `a` of the first argument and a [2048, 128] block `b` of the second and stores
  the [512, 2048] block whose entry (p, q) is

      exp (c · ((Σₖ a(p,k)² − 2 · Σₖ a(p,k) · b(q,k)) + Σₖ b(q,k)²)).

  The first row sum is kept as a column and broadcast along the row, the second is laid as a row and broadcast down the
  column, and the middle sum is the matrix unit's contraction of the last axis of both blocks into a zero accumulator;
  narrowing the operands' float format changes nothing on the extended reals. Each of the three is read at (p, q)
  below, and the element is `Cert.Rbf.entry` of them.
-/
import proofs.«123602_j74474732913139_1_alg».proof.Proof.Gen.KernelIdeal.Skeleton
import proofs.«123602_j74474732913139_1_alg».proof.Proof.RbfSpec
import proofs.«123602_j74474732913139_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Payload

open Cert.KernelIdeal Cert.KernelIdeal.Gen
open Idealize.ShloMosaic Idealize.ShloMosaic.ValueIdx

/-! ## The two row sums, each broadcast to the block -/

/-- Row sums of a [512, 128] block, kept as a column and broadcast along the row: at (p, q) the sum of row `p`. -/
theorem rowsum_col_apply (v : FVec Ideal S512x128 .f32) (h1 : S512x128.Reduces [1] S512) (h2 : S512.ShapeCasts S512x1)
    (h3 : S512x1.Broadcasts S512x2048) (p : Fin 512) (q : Fin 2048) :
    broadcastTo S512x2048 (shapeCast S512x1 (multiReduction .add [1] S512 v 0x00000000#32 h1 (.inl rfl) rfl) h2) h3 (ix2 p q)
      = ∑ k : Fin 128, v (ix2 p k) :=
  (Keepdims.broadcastTo_a1_ab_apply _ h3 p q).trans <|
    (Keepdims.shapeCast_a_a1_apply _ h2 p 0).trans <|
      (Ideal.multiReduction_add_single v 0x00000000#32 h1 (.inl rfl) rfl (ix1 p)).trans <|
        Finset.sum_congr rfl fun k _ => congrArg v (funext fun a => Fin.ext (by
          match a with | ⟨0, _⟩ => rfl | ⟨1, _⟩ => rfl))

/-- Row sums of a [2048, 128] block, laid as a row and broadcast down the column: at (p, q) the sum of row `q`. -/
theorem rowsum_row_apply (v : FVec Ideal S2048x128 .f32) (h1 : S2048x128.Reduces [1] S2048) (h2 : S2048.ShapeCasts S1x2048)
    (h3 : S1x2048.Broadcasts S512x2048) (p : Fin 512) (q : Fin 2048) :
    broadcastTo S512x2048 (shapeCast S1x2048 (multiReduction .add [1] S2048 v 0x00000000#32 h1 (.inl rfl) rfl) h2) h3 (ix2 p q)
      = ∑ k : Fin 128, v (ix2 q k) :=
  (broadcastTo_1b_ab_apply _ h3 p q).trans <|
    (shapeCast_a_1a_apply _ h2 0 q).trans <|
      (Ideal.multiReduction_add_single v 0x00000000#32 h1 (.inl rfl) rfl (ix1 q)).trans <|
        Finset.sum_congr rfl fun k _ => congrArg v (funext fun a => Fin.ext (by
          match a with | ⟨0, _⟩ => rfl | ⟨1, _⟩ => rfl))

/-! ## The contraction -/

/-- The left operand's row is the output's row … -/
theorem lhs_axis0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
/-- … and its column the contraction's coordinate. -/
theorem lhs_axis1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
/-- The right operand's row is the output's column … -/
theorem rhs_axis0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
/-- … and its column the contraction's coordinate. -/
theorem rhs_axis1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The matrix unit's product of a [512, 128] block with a [2048, 128] block over the last axis of both, into zero: at
    (p, q) the inner product of row `p` with row `q`. -/
theorem cross_apply (a : FVec Ideal S512x128 .bf16) (b : FVec Ideal S2048x128 .bf16) (p : Fin 512) (q : Fin 2048) :
    matmul dot_S512x128_S2048x128_S512x2048_1_1_0_0_n_n none a b (constant S512x2048 .f32 0x00000000#32) (ix2 p q)
      = ∑ k : Fin 128, a (ix2 p k) * b (ix2 q k) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p q) ((contrEquiv1 dot_S512x128_S2048x128_S512x2048_1_1_0_0_n_n 128 rfl rfl).symm k) = ix2 p k := funext fun ax => Fin.ext (by
    match ax with
    | ⟨0, _⟩ => exact lhs_axis0 _ _
    | ⟨1, _⟩ => exact (lhs_axis1 _ _).trans hk)
  have er : dot_S512x128_S2048x128_S512x2048_1_1_0_0_n_n.rhsIdx (ix2 p q) ((contrEquiv1 dot_S512x128_S2048x128_S512x2048_1_1_0_0_n_n 128 rfl rfl).symm k) = ix2 q k := funext fun ax => Fin.ext (by
    match ax with
    | ⟨0, _⟩ => exact rhs_axis0 _ _
    | ⟨1, _⟩ => exact (rhs_axis1 _ _).trans hk)
  rw [el, er]

/-! ## The stored element -/

/-- Entry (p, q) of the stored block is `entry` of the three sums over the loaded blocks' rows `p` and `q`. -/
theorem pay_apply (a : Vec Ideal S512x128 .f32) (b : Vec Ideal S2048x128 .f32) (p : Fin 512) (q : Fin 2048) :
    k0_pay1 (F := Ideal) a b (ix2 p q)
      = entry (∑ k : Fin 128, a (ix2 p k) * a (ix2 p k)) (∑ k : Fin 128, b (ix2 q k) * b (ix2 q k))
          (∑ k : Fin 128, a (ix2 p k) * b (ix2 q k)) := by
  unfold k0_pay1
  show Ideal.exp (Ideal.ofBits .f32 0xBBA3D70A#32 *
      (((broadcastTo S512x2048 (shapeCast S512x1 (multiReduction .add [1] S512 (mulf a a : FVec Ideal S512x128 .f32) 0x00000000#32 reduces_S512x128_S512 (.inl rfl) rfl) shapeCasts_S512_S512x1) broadcasts_S512x1_S512x2048 : FVec Ideal S512x2048 .f32) (ix2 p q)
        - Ideal.ofBits .f32 0x40000000#32 * matmul dot_S512x128_S2048x128_S512x2048_1_1_0_0_n_n none (truncf .bf16 a bitsLt_bf16_f32 : FVec Ideal S512x128 .bf16) (truncf .bf16 b bitsLt_bf16_f32 : FVec Ideal S2048x128 .bf16) (constant (F := Ideal) S512x2048 .f32 0x00000000#32) (ix2 p q))
       + (broadcastTo S512x2048 (shapeCast S1x2048 (multiReduction .add [1] S2048 (mulf b b : FVec Ideal S2048x128 .f32) 0x00000000#32 reduces_S2048x128_S2048 (.inl rfl) rfl) shapeCasts_S2048_S1x2048) broadcasts_S1x2048_S512x2048 : FVec Ideal S512x2048 .f32) (ix2 p q))) = _
  rw [rowsum_col_apply, rowsum_row_apply, cross_apply]
  rfl

end Cert.Rbf.Payload

end
-- ==== Proof.RbfBlocks.lean ====
/-
  From the blocks the grid points write back to the whole result array.

  The grid is 16 × 4: point (i, j) loads rows 512·i … 512·i + 511 of the first argument and rows 2048·j … 2048·j + 2047
  of the second, and writes back the [512, 2048] block of the result at block index (i, j). An entry (p, q) of that
  block needs row 512·i + p of the first argument and row 2048·j + q of the second, which are rows p and q of the two
  loaded blocks: so the block written back is the block of `Cert.Rbf.rbf` of the whole arguments. The 64 blocks tile
  the [8192, 8192] result, the block of entry (r, s) being (r / 512, s / 2048), so after the run the result array is
  `rbf` of the arguments.
-/
import proofs.«123602_j74474732913139_1_alg».proof.Proof.Gen.KernelIdeal.Value
import proofs.«123602_j74474732913139_1_alg».proof.Proof.RbfPayload
import Idealize.ShloMosaic.Lib.Pipeline.Value
import Idealize.ShloMosaic.Lib.Tactic

set_option maxRecDepth 16384

noncomputable section

open scoped BigOperators

namespace Cert.Rbf.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The first argument as the region finds it, at its literal type. -/
abbrev arg0 (c : Dev nD) : S8192x128.Idx → EReal := m ((c : Thread nD τ).loc main_arg0)
/-- The second argument as the region finds it, at its literal type. -/
abbrev arg1 (c : Dev nD) : S8192x128.Idx → EReal := m ((c : Thread nD τ).loc main_arg1)

theorem hz : (![0, 0] : Fin 2 → Nat) = fun _ => 0 := funext fun a => by fin_cases a <;> rfl

/-- The index maps over the grid: the first input moves with the output's block row, the second with its block column,
    neither moves along its own columns, and the output's block indices stay inside 16 × 4. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) < 16 ∧ win0_2.index t (1 : Fin 2) < 4 :=
  (by decide +kernel : ∀ t : Fin grid0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) < 16 ∧ win0_2.index t (1 : Fin 2) < 4)

/-- Every block index of the 16 × 4 box is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-! ## The loaded blocks as rows of the arguments -/

/-- Row `p` of the first input's block at point `t` is row `r` of the first argument, `r` = 512 · (block row) + p. -/
theorem iblk0_apply (c : Dev nD) (t : Fin cfg0.N) (p : Fin 512) (k : Fin 128) (r : Fin 8192)
    (hr : r.val = win0_2.index t (0 : Fin 2) * 512 + p.val) :
    (iblk m c 0 t : Vec Ideal S512x128 .f32) (ix2 p k) = arg0 m c (ix2 r k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 512 + 1 * p.val = r.val; rw [e0, hr]; omega
  | ⟨1, _⟩ => show win0_0.index t 1 * 128 + 1 * k.val = k.val; rw [e1]; omega

/-- Row `q` of the second input's block at point `t` is row `s` of the second argument, `s` = 2048 · (block column) + q. -/
theorem iblk1_apply (c : Dev nD) (t : Fin cfg0.N) (q : Fin 2048) (k : Fin 128) (s : Fin 8192)
    (hs : s.val = win0_2.index t (1 : Fin 2) * 2048 + q.val) :
    (iblk m c 1 t : Vec Ideal S2048x128 .f32) (ix2 q k) = arg1 m c (ix2 s k) := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 2048 + 1 * q.val = s.val; rw [e0, hs]; omega
  | ⟨1, _⟩ => show win0_1.index t 1 * 128 + 1 * k.val = k.val; rw [e1]; omega

/-- Entry (p, q) of the output's block at point `t` sits at (r, s) of the result array. -/
theorem emb_out (t : Fin cfg0.N) (p : Fin 512) (q : Fin 2048) (r s : Fin 8192)
    (hr : r.val = win0_2.index t (0 : Fin 2) * 512 + p.val) (hs : s.val = win0_2.index t (1 : Fin 2) * 2048 + q.val) :
    ((cfg0.win 2).blk t).view.emb (ix2 p q) = (ix2 r s : S8192x8192.Idx) := by
  funext a
  apply Fin.ext
  match a with
  | ⟨0, _⟩ => show win0_2.index t 0 * 512 + 1 * p.val = r.val; omega
  | ⟨1, _⟩ => show win0_2.index t 1 * 2048 + 1 * q.val = s.val; omega

/-! ## What a point writes back -/

/-- Point `t` writes back block `t` of the kernel matrix of the whole arguments. -/
theorem flushed_eq (c : Dev nD) (t : Fin cfg0.N) :
    (dats m 0 c).flushed 2 t = ((cfg0.win 2).blk t).view.read (Elt Ideal) (rbf (arg0 m c) (arg1 m c)) := by
  rw [Value.flushed2]
  unfold out0_2
  rw [View.canon_unit_zero hz]
  simp only [View.ld_unit_zero (S := S512x128) hz, View.ld_unit_zero (S := S2048x128) hz]
  funext j
  obtain ⟨p, q, rfl⟩ : ∃ (p : Fin 512) (q : Fin 2048), j = ix2 p q := ⟨j 0, j 1, eq_ix2 j⟩
  obtain ⟨-, -, -, -, b0, b1⟩ := idx_facts t
  have hr : win0_2.index t (0 : Fin 2) * 512 + p.val < 8192 := by have := p.isLt; omega
  have hs : win0_2.index t (1 : Fin 2) * 2048 + q.val < 8192 := by have := q.isLt; omega
  show k0_pay1 (F := Ideal) (iblk m c 0 t) (iblk m c 1 t) (ix2 p q)
    = rbf (arg0 m c) (arg1 m c) (((cfg0.win 2).blk t).view.emb (ix2 p q))
  rw [emb_out t p q ⟨_, hr⟩ ⟨_, hs⟩ rfl rfl, rbf_ix2]
  refine (Payload.pay_apply (iblk m c 0 t) (iblk m c 1 t) p q).trans ?_
  have h0 : ∀ k : Fin 128, (iblk m c 0 t : Vec Ideal S512x128 .f32) (ix2 p k) = arg0 m c (ix2 ⟨_, hr⟩ k) :=
    fun k => iblk0_apply m c t p k ⟨_, hr⟩ rfl
  have h1 : ∀ k : Fin 128, (iblk m c 1 t : Vec Ideal S2048x128 .f32) (ix2 q k) = arg1 m c (ix2 ⟨_, hs⟩ k) :=
    fun k => iblk1_apply m c t q k ⟨_, hs⟩ rfl
  unfold sqnorm inner
  refine congr (congr (congrArg entry ?_) ?_) ?_ <;> refine Finset.sum_congr rfl fun k _ => ?_
  · rw [h0 k]
  · rw [h1 k]
  · rw [h0 k, h1 k]

/-! ## The blocks tile the result -/

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Entry (r, s) of the result lies in the block of the point whose block index is (r / 512, s / 2048). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the run is the kernel matrix of the arguments. -/
theorem final (c : Dev nD) : (dats m 0 c).arrAt 2 cfg0.N = rbf (arg0 m c) (arg1 m c) :=
  (dats m 0 c).arrAt_eq_of_cover 2 (rbf (arg0 m c) (arg1 m c)) (fun t _ => flushed_eq m c t) cover

/-! ## The run, read -/

/-- Every weakly fair execution of the kernel's program ends with the result array at the kernel matrix of the
    arguments, and the arguments unchanged. -/
theorem run : θ_run defs (onTc (τ := τ) (main (F := Ideal))) ⟨m, fun _ => 0, ρ⟩ fun r => ∀ c : Dev nD,
      r.2.mem ((c : Thread nD τ).loc main_v0) = rbf (arg0 m c) (arg1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Rbf.Blocks

end
-- ==== Proof.lean ====
/-
  The Gaussian kernel matrix exp (c · ‖x1 r − x2 s‖²), with the square expanded as ‖x1 r‖² − 2 · ⟨x1 r, x2 s⟩ + ‖x2 s‖²:
  a tiled kernel (a 16 × 4 grid of [512, 2048] blocks, each from a [512, 128] and a [2048, 128] block of rows) against
  the same expression on whole arrays.

  On the extended reals both programs compute `Cert.Rbf.rbf` of the arguments (Proof/RbfSpec.lean): the same two
  constant words, the same order of the subtraction and the addition, and three sums over the same 128 terms each. The
  reference is read one operation at a time (Proof/RbfReference.lean); the kernel's stored block is read at an element
  (Proof/RbfPayload.lean) and the blocks are put together into the whole array (Proof/RbfBlocks.lean). No law of the
  extended reals is needed, so the finiteness of the inputs is not used. The idealization rewrote nothing, so there is
  nothing to preserve.
-/
import proofs.«123602_j74474732913139_1_alg».proof.Defs
import proofs.«123602_j74474732913139_1_alg».proof.Proof.Gen.Kernel
import proofs.«123602_j74474732913139_1_alg».proof.Proof.Gen.Kernel.Frame
import proofs.«123602_j74474732913139_1_alg».proof.Proof.Gen.KernelIdeal
import proofs.«123602_j74474732913139_1_alg».proof.Proof.Gen.KernelIdeal.Frame
import proofs.«123602_j74474732913139_1_alg».proof.Proof.Gen.KernelIdeal.Value
import proofs.«123602_j74474732913139_1_alg».proof.Proof.Gen.ReferenceIdeal
import proofs.«123602_j74474732913139_1_alg».proof.Proof.Gen.ReferenceIdeal.Run
import proofs.«123602_j74474732913139_1_alg».proof.Proof.Gen.ReferenceIdeal.Read
import proofs.«123602_j74474732913139_1_alg».proof.Proof.Gen.Pre_finite_inputs
import proofs.«123602_j74474732913139_1_alg».proof.Proof.RbfReference
import proofs.«123602_j74474732913139_1_alg».proof.Proof.RbfBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From arguments that agree, both programs end with the kernel matrix `rbf` of the arguments in their result. -/
theorem algebraic : Cert.algebraic_KernelIdeal_ReferenceIdeal := by
  intro m ρ m' ρ' _ hagree
  refine ⟨_, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
